-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S128 .f32) (main_arg7 : FVec F S256x128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S256x128 .f32) (main_arg6 : FVec F S128 .f32) (main_arg7 : FVec F S256x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S1x128 : Shape := ⟨2, ![1, 128]⟩
abbrev S2000x256 : Shape := ⟨2, ![2000, 256]⟩
abbrev S2000x128 : Shape := ⟨2, ![2000, 128]⟩

abbrev nBuf : Space → Nat
  | .hbm => 67
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S50000x128, .bf16⟩
  | .hbm, ⟨41, _⟩ => ⟨S50000x128, .bf16⟩
  | .hbm, ⟨42, _⟩ => ⟨S128x256, .bf16⟩
  | .hbm, ⟨43, _⟩ => ⟨S128x256, .bf16⟩
  | .hbm, ⟨44, _⟩ => ⟨S1x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S50000x256, .bf16⟩
  | .hbm, ⟨62, _⟩ => ⟨S50000x256, .bf16⟩
  | .hbm, ⟨63, _⟩ => ⟨S256x128, .bf16⟩
  | .hbm, ⟨64, _⟩ => ⟨S256x128, .bf16⟩
  | .hbm, ⟨65, _⟩ => ⟨S1x128, .f32⟩
  | .hbm, ⟨66, _⟩ => ⟨S50000x128, .f32⟩
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S128x256, .bf16⟩
  | .local _ .vmem, ⟨5, _⟩ => ⟨S1x256, .f32⟩
  | .local _ .vmem, ⟨6, _⟩ => ⟨S128x256, .bf16⟩
  | .local _ .vmem, ⟨7, _⟩ => ⟨S5000x256, .f32⟩
  | .local _ .vmem, ⟨8, _⟩ => ⟨S5000x256, .f32⟩
  | .local _ .vmem, ⟨9, _⟩ => ⟨S2000x256, .bf16⟩
  | .local _ .vmem, ⟨10, _⟩ => ⟨S2000x256, .bf16⟩
  | .local _ .vmem, ⟨11, _⟩ => ⟨S2000x256, .bf16⟩
  | .local _ .vmem, ⟨12, _⟩ => ⟨S2000x256, .bf16⟩
  | .local _ .vmem, ⟨13, _⟩ => ⟨S256x128, .bf16⟩
  | .local _ .vmem, ⟨14, _⟩ => ⟨S1x128, .f32⟩
  | .local _ .vmem, ⟨15, _⟩ => ⟨S256x128, .bf16⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bitsLt_bf16_f32 : FTy.bits .bf16 < FTy.bits .f32
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .bf16 = 32 ∨ (Rect.block (s := S50000x128) S5000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .bf16 = 32 ∨ (Rect.block (s := S256x128) S256x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .bf16 = 32 ∨ (Rect.block (s := S256x128) S256x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v25) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x128, .f32⟩
  | .hbm, ⟨6, _⟩ => ⟨S128, .f32⟩
  | .hbm, ⟨7, _⟩ => ⟨S256x128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S_, .f32⟩
  | .hbm, ⟨44, _⟩ => ⟨S50000x256, .f32⟩
  | .hbm, ⟨45, _⟩ => ⟨S50000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S50000x256, .f32⟩
  | .hbm, ⟨57, _⟩ => ⟨S800000x1, .i32⟩
  | .hbm, ⟨58, _⟩ => ⟨S50000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x256, .f32⟩
  | .hbm, ⟨70, _⟩ => ⟨S50000x256, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The mathematics of one GraphSAGE stage over the extended reals, with no program in sight.

  A stage takes the neighbour aggregate `S` (a sum of rows scattered to their destination nodes), the
  clamped in-degree `c = max(cnt, 1)`, the node features `X`, two weight matrices and a bias, and returns
  `mean · W_l + β + X · W_r` with `mean = S / c` row by row. Two spellings of the mean occur: the quotient
  `S / c` and the product `S · (1 / c)`. Division on the extended reals is the product with the inverse
  wherever the divisor is not zero, and `max(x, 1)` is never zero, so the two spellings are one function of
  `S` and `x`, at infinite entries too.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- A matrix given entry by entry, as an array over the rank-2 index set. -/
def arr2 {n b : Nat} (f : Fin n → Fin b → EReal) : (⟨2, ![n, b]⟩ : Shape).Idx → EReal :=
  fun i => f ⟨(i 0).val, (i 0).isLt⟩ ⟨(i 1).val, (i 1).isLt⟩

theorem arr2_ix2 {n b : Nat} (f : Fin n → Fin b → EReal) (r : Fin n) (q : Fin b) : arr2 f (ix2 r q) = f r q := rfl

/-- The affine part of a stage at node `r` and output feature `q`: row `r` of `M` against column `q` of
    `Wl`, plus the bias at `q`, plus row `r` of `X` against column `q` of `Wr` (in this order of addition). -/
def dense {n a b : Nat} (M X : (⟨2, ![n, a]⟩ : Shape).Idx → EReal) (Wl Wr : (⟨2, ![a, b]⟩ : Shape).Idx → EReal)
    (β : Fin b → EReal) (r : Fin n) (q : Fin b) : EReal :=
  (∑ k : Fin a, M (ix2 r k) * Wl (ix2 k q)) + β q + ∑ k : Fin a, X (ix2 r k) * Wr (ix2 k q)

/-- The rectified stage: the affine part clamped below by `z` (the zero both programs spell). -/
def denseRelu {n a b : Nat} (z : EReal) (M X : (⟨2, ![n, a]⟩ : Shape).Idx → EReal) (Wl Wr : (⟨2, ![a, b]⟩ : Shape).Idx → EReal)
    (β : Fin b → EReal) (r : Fin n) (q : Fin b) : EReal :=
  max (dense M X Wl Wr β r q) z

/-- Row `r` of the aggregate divided by that node's clamped degree. -/
def meanBy {n b : Nat} (S : (⟨2, ![n, b]⟩ : Shape).Idx → EReal) (c : Fin n → EReal) (r : Fin n) (q : Fin b) : EReal :=
  Ideal.div (S (ix2 r q)) (c r)

/-- A degree clamped below by a positive number is not zero. -/
theorem max_ne_zero (x : EReal) {u : EReal} (hu : 0 < u) : max x u ≠ 0 :=
  fun h => absurd (h ▸ le_max_right x u) (not_le.mpr hu)

/-- Multiplying by the reciprocal of a nonzero extended real is dividing by it. -/
theorem mul_div_one (s c u : EReal) (hc : c ≠ 0) (hu : u = 1) : s * Ideal.div u c = Ideal.div s c := by
  subst hu
  unfold Ideal.div
  rw [if_neg hc, if_neg hc, one_mul]

/-- The float pattern of `1.0` denotes the number one. -/
theorem ofBits_one : Ideal.ofBits .f32 0x3F800000#32 = 1 := by
  simp [Ideal.ofBits, Ideal.ieee, -EReal.coe_mul]; norm_num

end Cert.Sage

end
-- ==== Proof.Pay0.lean ====
/-
  The body of region 0 at one entry of its output block.

  The body loads a block of 5000 mean rows, the same 5000 rows of node features, two 128×256 weight matrices and
  a one-row bias, and stores `mean · W_l + bias + features · W_r`, clamped below by zero. Each matrix product
  into a zero accumulator is, at an entry, the plain sum over the 128 contracted positions of the products of
  the row's and the column's entries; the bias row is repeated down the rows.
-/
import proofs.«404230_j6674379178176_3_alg».proof.Proof.Gen.KernelIdeal.Skeleton
import proofs.«404230_j6674379178176_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Pay0

open Cert.KernelIdeal Cert.KernelIdeal.Gen Idealize.ShloMosaic Idealize.ShloMosaic.TcCoe Idealize.ShloMosaic.ValueIdx

/-! The operand positions of the product at output entry `i` and contracted position `q`: the left operand is
    read at (row of `i`, `q`), the right one at (`q`, column of `i`). -/

theorem lhs_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- A matrix product into the zero accumulator, at entry (`p`, `q`): the sum over the contracted position `k` of
    the left operand at (`p`, `k`) times the right operand at (`k`, `q`). -/
theorem matmul_zero_apply (a : FVec Ideal S5000x128 .bf16) (b : FVec Ideal S128x256 .bf16) (p : Fin 5000) (q : Fin 256) :
    matmul dot_S5000x128_S128x256_S5000x256_1_0_0_1_n_n none a b (constant S5000x256 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ix2 p q) ((ValueIdx.contrEquiv1 dot_S5000x128_S128x256_S5000x256_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x256_S5000x256_1_0_0_1_n_n.rhsIdx (ix2 p q) ((ValueIdx.contrEquiv1 dot_S5000x128_S128x256_S5000x256_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The one-row bias repeated down the rows, at entry (`p`, `q`): the bias at `q`. -/
theorem bias_apply (β : FVec Ideal S1x256 .f32) (p : Fin 5000) (q : Fin 256) :
    broadcastTo S5000x256 β broadcasts_S1x256_S5000x256 (ix2 p q) = β (ix2 0 q) := by
  refine broadcastTo_apply β broadcasts_S1x256_S5000x256 (ix2 p q) (ix2 0 q) fun a => ?_
  match a with
  | ⟨0, _⟩ => show 0 = if (1 : Nat) = 1 then 0 else _; rw [if_pos rfl]
  | ⟨1, _⟩ => show q.val = if (256 : Nat) = 1 then 0 else q.val; rw [if_neg (by decide)]

/-- What the body stores, at entry (`p`, `q`) of its block. -/
theorem pay_apply (x0 x1 : Vec Ideal S5000x128 .bf16) (x2 : Vec Ideal S128x256 .bf16) (x3 : Vec Ideal S1x256 .f32) (x4 : Vec Ideal S128x256 .bf16)
    (p : Fin 5000) (q : Fin 256) :
    k0_pay1 x0 x1 x2 x3 x4 (ix2 p q)
      = max ((∑ k : Fin 128, x0 (ix2 p k) * x2 (ix2 k q)) + x3 (ix2 0 q) + ∑ k : Fin 128, x1 (ix2 p k) * x4 (ix2 k q)) (Ideal.ofBits .f32 0x00000000#32) := by
  unfold k0_pay1
  simp only [shapeCast_self]
  rw [maximumf_apply, addf_apply, addf_apply, matmul_zero_apply, matmul_zero_apply, bias_apply]
  rfl

end Cert.KernelIdeal.Pay0

end
-- ==== Proof.Stage0.lean ====
/-
  Region 0 of the kernel program as ONE function of the arrays it is entered with.

  The region walks the 10 row blocks of 5000 nodes. At block `t` it stages rows `5000·t … 5000·t + 4999` of the mean
  array and of the feature array, the two whole weight matrices and the whole one-row bias, runs the body, and
  writes the body's 5000×256 result back as rows `5000·t … 5000·t + 4999` of the output array. The body's entry
  (`p`, `q`) depends only on row `p` of its two row blocks, so what block `t` writes back is rows
  `5000·t …` of one whole-array function: node `r`, feature `q` ↦ the dense stage of row `r`. The 10 blocks
  tile the 50000 rows, so after the region the output array IS that function.
-/
import proofs.«404230_j6674379178176_3_alg».proof.Proof.Gen.KernelIdeal.Frame
import proofs.«404230_j6674379178176_3_alg».proof.Proof.Spec
import proofs.«404230_j6674379178176_3_alg».proof.Proof.Pay0
import Idealize.ShloMosaic.Lib.Pipeline.Value

noncomputable section

namespace Cert.KernelIdeal.Stage0

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block each window stages at grid point `t`: the two row windows and the output window move down the rows
    with `t`; the weight and bias windows stay on their one block. (Decided over the 10 points.) -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The whole-array function the region computes: the dense stage of the entry arrays, node by node. -/
abbrev G (c : Dev nD) : S50000x256.Idx → EReal :=
  Cert.Sage.arr2 (Cert.Sage.denseRelu (Ideal.ofBits .f32 0x00000000#32) (V c main_v25) (V c main_v26) (V c main_v27) (V c main_v28)
          (fun q => V c main_v29 (ix2 0 q)))

/-! Each staged block read back through its window: entry (`p`, `k`) of a row block at point `t` is the array at
    row `5000·t + p`; a weight or bias block is its whole array. -/

theorem blk0 (c : Dev nD) (t : Fin cfg0.N) (p : Fin 5000) (k : Fin 128) (r : Fin 50000) (hr : r.val = t.val * 5000 + p.val) :
    (iblk0 V c 0 t : Vec Ideal S5000x128 .bf16) (ix2 p k) = (V c main_v25 : S50000x128.Idx → Elt Ideal .bf16) (ix2 r k) := by
  obtain ⟨e0, e1, -⟩ := idx_facts t
  unfold iblk0
  rw [View.read_apply]
  show V c main_v25 _ = V c main_v25 _
  congr 1
  funext a; apply Fin.ext
  match a with
  | ⟨0, _⟩ => show win0_0.index t 0 * 5000 + 1 * p.val = r.val; rw [e0, hr]; omega
  | ⟨1, _⟩ => show win0_0.index t 1 * 128 + 1 * k.val = k.val; rw [e1]; omega

theorem blk1 (c : Dev nD) (t : Fin cfg0.N) (p : Fin 5000) (k : Fin 128) (r : Fin 50000) (hr : r.val = t.val * 5000 + p.val) :
    (iblk0 V c 1 t : Vec Ideal S5000x128 .bf16) (ix2 p k) = (V c main_v26 : S50000x128.Idx → Elt Ideal .bf16) (ix2 r k) := by
  obtain ⟨-, -, e0, e1, -⟩ := idx_facts t
  unfold iblk0
  rw [View.read_apply]
  show V c main_v26 _ = V c main_v26 _
  congr 1
  funext a; apply Fin.ext
  match a with
  | ⟨0, _⟩ => show win0_1.index t 0 * 5000 + 1 * p.val = r.val; rw [e0, hr]; omega
  | ⟨1, _⟩ => show win0_1.index t 1 * 128 + 1 * k.val = k.val; rw [e1]; omega

theorem blk2 (c : Dev nD) (t : Fin cfg0.N) (k : Fin 128) (q : Fin 256) :
    (iblk0 V c 2 t : Vec Ideal S128x256 .bf16) (ix2 k q) = (V c main_v27 : S128x256.Idx → Elt Ideal .bf16) (ix2 k q) := by
  obtain ⟨-, -, -, -, e0, e1, -⟩ := idx_facts t
  unfold iblk0
  rw [View.read_apply]
  show V c main_v27 _ = V c main_v27 _
  congr 1
  funext a; apply Fin.ext
  match a with
  | ⟨0, _⟩ => show win0_2.index t 0 * 128 + 1 * k.val = k.val; rw [e0]; omega
  | ⟨1, _⟩ => show win0_2.index t 1 * 256 + 1 * q.val = q.val; rw [e1]; omega

theorem blk3 (c : Dev nD) (t : Fin cfg0.N) (q : Fin 256) :
    (iblk0 V c 3 t : Vec Ideal S1x256 .f32) (ix2 0 q) = (V c main_v29 : S1x256.Idx → Elt Ideal .f32) (ix2 0 q) := by
  obtain ⟨-, -, -, -, -, -, e0, e1, -⟩ := idx_facts t
  unfold iblk0
  rw [View.read_apply]
  show V c main_v29 _ = V c main_v29 _
  congr 1
  funext a; apply Fin.ext
  match a with
  | ⟨0, _⟩ => show win0_3.index t 0 * 1 + 1 * 0 = 0; rw [e0]
  | ⟨1, _⟩ => show win0_3.index t 1 * 256 + 1 * q.val = q.val; rw [e1]; omega

theorem blk4 (c : Dev nD) (t : Fin cfg0.N) (k : Fin 128) (q : Fin 256) :
    (iblk0 V c 4 t : Vec Ideal S128x256 .bf16) (ix2 k q) = (V c main_v28 : S128x256.Idx → Elt Ideal .bf16) (ix2 k q) := by
  obtain ⟨-, -, -, -, -, -, -, -, e0, e1, -⟩ := idx_facts t
  unfold iblk0
  rw [View.read_apply]
  show V c main_v28 _ = V c main_v28 _
  congr 1
  funext a; apply Fin.ext
  match a with
  | ⟨0, _⟩ => show win0_4.index t 0 * 128 + 1 * k.val = k.val; rw [e0]; omega
  | ⟨1, _⟩ => show win0_4.index t 1 * 256 + 1 * q.val = q.val; rw [e1]; omega

/-- The body's result at entry (`p`, `q`) of block `t` is the dense stage at node `r = 5000·t + p`, feature `q`. -/
theorem body_at (c : Dev nD) (t : Fin cfg0.N) (p : Fin 5000) (q : Fin 256) (r : Fin 50000) (hr : r.val = t.val * 5000 + p.val) :
    k0_pay1 (iblk0 V c 0 t) (iblk0 V c 1 t) (iblk0 V c 2 t) (iblk0 V c 3 t) (iblk0 V c 4 t) (ix2 p q)
      = Cert.Sage.denseRelu (Ideal.ofBits .f32 0x00000000#32) (V c main_v25) (V c main_v26) (V c main_v27) (V c main_v28)
          (fun q => V c main_v29 (ix2 0 q)) r q := by
  refine (Pay0.pay_apply (iblk0 V c 0 t) (iblk0 V c 1 t) (iblk0 V c 2 t) (iblk0 V c 3 t) (iblk0 V c 4 t) p q).trans ?_
  unfold Cert.Sage.denseRelu Cert.Sage.dense
  refine congrArg₂ max (congrArg₂ (· + ·) (congrArg₂ (· + ·) ?_ ?_) ?_) rfl
  · exact Finset.sum_congr rfl fun k _ => by rw [blk0 V c t p k r hr, blk2 V c t k q]
  · exact blk3 V c t q
  · exact Finset.sum_congr rfl fun k _ => by rw [blk1 V c t p k r hr, blk4 V c t k q]

/-- What point `t` writes back is block `t` of `G`. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x256) hz, View.ld_unit_zero (S := S1x256) hz]
  funext j
  revert j
  intro (j : S5000x256.Idx)
  obtain ⟨p, q, rfl⟩ : ∃ (p : Fin 5000) (q : Fin 256), j = ix2 p q := ⟨j 0, j 1, eq_ix2 j⟩
  obtain ⟨-, -, -, -, -, -, -, -, -, -, e0, e1⟩ := idx_facts t
  show k0_pay1 (iblk0 V c 0 t) (iblk0 V c 1 t) (iblk0 V c 2 t) (iblk0 V c 3 t) (iblk0 V c 4 t) (ix2 p q) = G V c (((cfg0.win 5).blk t).view.emb (ix2 p q))
  have hp : p.val < 5000 := p.isLt
  have ht : t.val < 10 := t.isLt
  refine (body_at V c t p q ⟨t.val * 5000 + p.val, by omega⟩ rfl).trans ?_
  refine congrArg₂ (Cert.Sage.denseRelu (Ideal.ofBits .f32 0x00000000#32) (V c main_v25) (V c main_v26) (V c main_v27) (V c main_v28) (fun q => V c main_v29 (ix2 0 q))) (Fin.ext ?_) (Fin.ext ?_)
  · show t.val * 5000 + p.val = win0_5.index t 0 * 5000 + 1 * p.val
    rw [e0]; omega
  · show q.val = win0_5.index t 1 * 256 + 1 * q.val
    rw [e1]; omega

/-- An array index lies in point `t`'s output block iff each coordinate lies in the block's range on its axis. -/
theorem mem_blk (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v30).slice (win0_5.rect t)).set ↔ _
  rw [View.set_slice_whole, Rect.mem_set_unit]
  exact Iff.rfl

/-- Every node's row is in the block of the point `row / 5000`. -/
theorem cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ : ∃ t : Fin cfg0.N, t.val = (i 0).val / 5000 := ⟨⟨(i 0).val / 5000, by show _ < 10; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t 0 * 5000 ≤ (i 0).val ∧ (i 0).val < win0_5.index t 0 * 5000 + 5000
    rw [e0, ht]; omega
  | ⟨1, _⟩ =>
    show win0_5.index t 1 * 256 ≤ (i 1).val ∧ (i 1).val < win0_5.index t 1 * 256 + 256
    rw [e1]; omega

/-- After the region its output array is the dense stage of the entry arrays. -/
theorem final (c : Dev nD) :
    (dat0 (F := Ideal) V c).arrAt 5 cfg0.N
      = Cert.Sage.arr2 (Cert.Sage.denseRelu (Ideal.ofBits .f32 0x00000000#32) (V c main_v25) (V c main_v26) (V c main_v27) (V c main_v28)
          (fun q => V c main_v29 (ix2 0 q))) :=
  (dat0 V c).arrAt_eq_of_cover 5 (G V c) (fun t _ => flushed_eq V c t) cover

end Cert.KernelIdeal.Stage0

end
-- ==== Proof.Pay1.lean ====
/-
  The body of region 1 at one entry of its output block.

  The body loads a block of 2000 mean rows, the same 2000 rows of node features, two 256×128 weight matrices and
  a one-row bias, and stores `mean · W_l + bias + features · W_r`. Each matrix product
  into a zero accumulator is, at an entry, the plain sum over the 256 contracted positions of the products of
  the row's and the column's entries; the bias row is repeated down the rows.
-/
import proofs.«404230_j6674379178176_3_alg».proof.Proof.Gen.KernelIdeal.Skeleton
import proofs.«404230_j6674379178176_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Pay1

open Cert.KernelIdeal Cert.KernelIdeal.Gen Idealize.ShloMosaic Idealize.ShloMosaic.TcCoe Idealize.ShloMosaic.ValueIdx

/-! The operand positions of the product at output entry `i` and contracted position `q`: the left operand is
    read at (row of `i`, `q`), the right one at (`q`, column of `i`). -/

theorem lhs_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A matrix product into the zero accumulator, at entry (`p`, `q`): the sum over the contracted position `k` of
    the left operand at (`p`, `k`) times the right operand at (`k`, `q`). -/
theorem matmul_zero_apply (a : FVec Ideal S2000x256 .bf16) (b : FVec Ideal S256x128 .bf16) (p : Fin 2000) (q : Fin 128) :
    matmul dot_S2000x256_S256x128_S2000x128_1_0_0_1_n_n none a b (constant S2000x128 .f32 0x00000000#32) (ix2 p q)
      = ∑ k : Fin 256, a (ix2 p k) * b (ix2 k q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_0 _ _
    | ⟨1, _⟩ => exact (lhs_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_0 _ _).trans hk
    | ⟨1, _⟩ => exact rhs_1 _ _)
  rw [el, er]

/-- The one-row bias repeated down the rows, at entry (`p`, `q`): the bias at `q`. -/
theorem bias_apply (β : FVec Ideal S1x128 .f32) (p : Fin 2000) (q : Fin 128) :
    broadcastTo S2000x128 β broadcasts_S1x128_S2000x128 (ix2 p q) = β (ix2 0 q) := by
  refine broadcastTo_apply β broadcasts_S1x128_S2000x128 (ix2 p q) (ix2 0 q) fun a => ?_
  match a with
  | ⟨0, _⟩ => show 0 = if (1 : Nat) = 1 then 0 else _; rw [if_pos rfl]
  | ⟨1, _⟩ => show q.val = if (128 : Nat) = 1 then 0 else q.val; rw [if_neg (by decide)]

/-- What the body stores, at entry (`p`, `q`) of its block. -/
theorem pay_apply (x0 x1 : Vec Ideal S2000x256 .bf16) (x2 : Vec Ideal S256x128 .bf16) (x3 : Vec Ideal S1x128 .f32) (x4 : Vec Ideal S256x128 .bf16)
    (p : Fin 2000) (q : Fin 128) :
    k1_pay1 x0 x1 x2 x3 x4 (ix2 p q)
      = (∑ k : Fin 256, x0 (ix2 p k) * x2 (ix2 k q)) + x3 (ix2 0 q) + ∑ k : Fin 256, x1 (ix2 p k) * x4 (ix2 k q) := by
  unfold k1_pay1
  simp only [shapeCast_self]
  rw [addf_apply, addf_apply, matmul_zero_apply, matmul_zero_apply, bias_apply]

end Cert.KernelIdeal.Pay1

end
-- ==== Proof.Stage1.lean ====
/-
  Region 1 of the kernel program as ONE function of the arrays it is entered with.

  The region walks the 25 row blocks of 2000 nodes. At block `t` it stages rows `2000·t … 2000·t + 1999` of the mean
  array and of the feature array, the two whole weight matrices and the whole one-row bias, runs the body, and
  writes the body's 2000×128 result back as rows `2000·t … 2000·t + 1999` of the output array. The body's entry
  (`p`, `q`) depends only on row `p` of its two row blocks, so what block `t` writes back is rows
  `2000·t …` of one whole-array function: node `r`, feature `q` ↦ the dense stage of row `r`. The 25 blocks
  tile the 50000 rows, so after the region the output array IS that function.
-/
import proofs.«404230_j6674379178176_3_alg».proof.Proof.Gen.KernelIdeal.Frame
import proofs.«404230_j6674379178176_3_alg».proof.Proof.Spec
import proofs.«404230_j6674379178176_3_alg».proof.Proof.Pay1
import Idealize.ShloMosaic.Lib.Pipeline.Value

noncomputable section

namespace Cert.KernelIdeal.Stage1

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block each window stages at grid point `t`: the two row windows and the output window move down the rows
    with `t`; the weight and bias windows stay on their one block. (Decided over the 25 points.) -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The whole-array function the region computes: the dense stage of the entry arrays, node by node. -/
abbrev G (c : Dev nD) : S50000x128.Idx → EReal :=
  Cert.Sage.arr2 (Cert.Sage.dense (V c main_v43) (V c main_v44) (V c main_v45) (V c main_v46)
          (fun q => V c main_v47 (ix2 0 q)))

/-! Each staged block read back through its window: entry (`p`, `k`) of a row block at point `t` is the array at
    row `2000·t + p`; a weight or bias block is its whole array. -/

theorem blk0 (c : Dev nD) (t : Fin cfg1.N) (p : Fin 2000) (k : Fin 256) (r : Fin 50000) (hr : r.val = t.val * 2000 + p.val) :
    (iblk1 V c 0 t : Vec Ideal S2000x256 .bf16) (ix2 p k) = (V c main_v43 : S50000x256.Idx → Elt Ideal .bf16) (ix2 r k) := by
  obtain ⟨e0, e1, -⟩ := idx_facts t
  unfold iblk1
  rw [View.read_apply]
  show V c main_v43 _ = V c main_v43 _
  congr 1
  funext a; apply Fin.ext
  match a with
  | ⟨0, _⟩ => show win1_0.index t 0 * 2000 + 1 * p.val = r.val; rw [e0, hr]; omega
  | ⟨1, _⟩ => show win1_0.index t 1 * 256 + 1 * k.val = k.val; rw [e1]; omega

theorem blk1 (c : Dev nD) (t : Fin cfg1.N) (p : Fin 2000) (k : Fin 256) (r : Fin 50000) (hr : r.val = t.val * 2000 + p.val) :
    (iblk1 V c 1 t : Vec Ideal S2000x256 .bf16) (ix2 p k) = (V c main_v44 : S50000x256.Idx → Elt Ideal .bf16) (ix2 r k) := by
  obtain ⟨-, -, e0, e1, -⟩ := idx_facts t
  unfold iblk1
  rw [View.read_apply]
  show V c main_v44 _ = V c main_v44 _
  congr 1
  funext a; apply Fin.ext
  match a with
  | ⟨0, _⟩ => show win1_1.index t 0 * 2000 + 1 * p.val = r.val; rw [e0, hr]; omega
  | ⟨1, _⟩ => show win1_1.index t 1 * 256 + 1 * k.val = k.val; rw [e1]; omega

theorem blk2 (c : Dev nD) (t : Fin cfg1.N) (k : Fin 256) (q : Fin 128) :
    (iblk1 V c 2 t : Vec Ideal S256x128 .bf16) (ix2 k q) = (V c main_v45 : S256x128.Idx → Elt Ideal .bf16) (ix2 k q) := by
  obtain ⟨-, -, -, -, e0, e1, -⟩ := idx_facts t
  unfold iblk1
  rw [View.read_apply]
  show V c main_v45 _ = V c main_v45 _
  congr 1
  funext a; apply Fin.ext
  match a with
  | ⟨0, _⟩ => show win1_2.index t 0 * 256 + 1 * k.val = k.val; rw [e0]; omega
  | ⟨1, _⟩ => show win1_2.index t 1 * 128 + 1 * q.val = q.val; rw [e1]; omega

theorem blk3 (c : Dev nD) (t : Fin cfg1.N) (q : Fin 128) :
    (iblk1 V c 3 t : Vec Ideal S1x128 .f32) (ix2 0 q) = (V c main_v47 : S1x128.Idx → Elt Ideal .f32) (ix2 0 q) := by
  obtain ⟨-, -, -, -, -, -, e0, e1, -⟩ := idx_facts t
  unfold iblk1
  rw [View.read_apply]
  show V c main_v47 _ = V c main_v47 _
  congr 1
  funext a; apply Fin.ext
  match a with
  | ⟨0, _⟩ => show win1_3.index t 0 * 1 + 1 * 0 = 0; rw [e0]
  | ⟨1, _⟩ => show win1_3.index t 1 * 128 + 1 * q.val = q.val; rw [e1]; omega

theorem blk4 (c : Dev nD) (t : Fin cfg1.N) (k : Fin 256) (q : Fin 128) :
    (iblk1 V c 4 t : Vec Ideal S256x128 .bf16) (ix2 k q) = (V c main_v46 : S256x128.Idx → Elt Ideal .bf16) (ix2 k q) := by
  obtain ⟨-, -, -, -, -, -, -, -, e0, e1, -⟩ := idx_facts t
  unfold iblk1
  rw [View.read_apply]
  show V c main_v46 _ = V c main_v46 _
  congr 1
  funext a; apply Fin.ext
  match a with
  | ⟨0, _⟩ => show win1_4.index t 0 * 256 + 1 * k.val = k.val; rw [e0]; omega
  | ⟨1, _⟩ => show win1_4.index t 1 * 128 + 1 * q.val = q.val; rw [e1]; omega

/-- The body's result at entry (`p`, `q`) of block `t` is the dense stage at node `r = 2000·t + p`, feature `q`. -/
theorem body_at (c : Dev nD) (t : Fin cfg1.N) (p : Fin 2000) (q : Fin 128) (r : Fin 50000) (hr : r.val = t.val * 2000 + p.val) :
    k1_pay1 (iblk1 V c 0 t) (iblk1 V c 1 t) (iblk1 V c 2 t) (iblk1 V c 3 t) (iblk1 V c 4 t) (ix2 p q)
      = Cert.Sage.dense (V c main_v43) (V c main_v44) (V c main_v45) (V c main_v46)
          (fun q => V c main_v47 (ix2 0 q)) r q := by
  refine (Pay1.pay_apply (iblk1 V c 0 t) (iblk1 V c 1 t) (iblk1 V c 2 t) (iblk1 V c 3 t) (iblk1 V c 4 t) p q).trans ?_
  unfold Cert.Sage.dense
  refine congrArg₂ (· + ·) (congrArg₂ (· + ·) ?_ ?_) ?_
  · exact Finset.sum_congr rfl fun k _ => by rw [blk0 V c t p k r hr, blk2 V c t k q]
  · exact blk3 V c t q
  · exact Finset.sum_congr rfl fun k _ => by rw [blk1 V c t p k r hr, blk4 V c t k q]

/-- What point `t` writes back is block `t` of `G`. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz, View.ld_unit_zero (S := S1x128) hz]
  funext j
  revert j
  intro (j : S2000x128.Idx)
  obtain ⟨p, q, rfl⟩ : ∃ (p : Fin 2000) (q : Fin 128), j = ix2 p q := ⟨j 0, j 1, eq_ix2 j⟩
  obtain ⟨-, -, -, -, -, -, -, -, -, -, e0, e1⟩ := idx_facts t
  show k1_pay1 (iblk1 V c 0 t) (iblk1 V c 1 t) (iblk1 V c 2 t) (iblk1 V c 3 t) (iblk1 V c 4 t) (ix2 p q) = G V c (((cfg1.win 5).blk t).view.emb (ix2 p q))
  have hp : p.val < 2000 := p.isLt
  have ht : t.val < 25 := t.isLt
  refine (body_at V c t p q ⟨t.val * 2000 + p.val, by omega⟩ rfl).trans ?_
  refine congrArg₂ (Cert.Sage.dense (V c main_v43) (V c main_v44) (V c main_v45) (V c main_v46) (fun q => V c main_v47 (ix2 0 q))) (Fin.ext ?_) (Fin.ext ?_)
  · show t.val * 2000 + p.val = win1_5.index t 0 * 2000 + 1 * p.val
    rw [e0]; omega
  · show q.val = win1_5.index t 1 * 128 + 1 * q.val
    rw [e1]; omega

/-- An array index lies in point `t`'s output block iff each coordinate lies in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v48).slice (win1_5.rect t)).set ↔ _
  rw [View.set_slice_whole, Rect.mem_set_unit]
  exact Iff.rfl

/-- Every node's row is in the block of the point `row / 2000`. -/
theorem cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 2000 := ⟨⟨(i 0).val / 2000, by show _ < 25; omega⟩, rfl⟩
  obtain ⟨-, -, -, -, -, -, -, -, -, -, e0, e1⟩ := idx_facts t
  refine ⟨t, flush1_5 t, ?_⟩
  rw [mem_blk]
  intro a
  match a with
  | ⟨0, _⟩ =>
    show win1_5.index t 0 * 2000 ≤ (i 0).val ∧ (i 0).val < win1_5.index t 0 * 2000 + 2000
    rw [e0, ht]; omega
  | ⟨1, _⟩ =>
    show win1_5.index t 1 * 128 ≤ (i 1).val ∧ (i 1).val < win1_5.index t 1 * 128 + 128
    rw [e1]; omega

/-- After the region its output array is the dense stage of the entry arrays. -/
theorem final (c : Dev nD) :
    (dat1 (F := Ideal) V c).arrAt 5 cfg1.N
      = Cert.Sage.arr2 (Cert.Sage.dense (V c main_v43) (V c main_v44) (V c main_v45) (V c main_v46)
          (fun q => V c main_v47 (ix2 0 q))) :=
  (dat1 V c).arrAt_eq_of_cover 5 (G V c) (fun t _ => flushed_eq V c t) cover

end Cert.KernelIdeal.Stage1

end
-- ==== Proof.KTerm.lean ====
/-
  The kernel program's result as ONE function of its eight arguments, at the extended reals.

  Reading the program top to bottom: the edge list's two rows are the source and destination node of each
  edge; the in-degree of a node is the scattered sum of ones over the edges that end there, clamped below by
  one, and its reciprocal is laid out as a column; the first aggregate is the scattered sum, per destination,
  of the source rows of `x`; its rows times the reciprocal column are the means; the first dense stage turns
  means and features into the hidden features (rectified); the second aggregate, mean and dense stage do the
  same with the hidden features (no rectifier). Changes of float format are the identity here and are kept
  only so that the terms are the program's own.
-/
import proofs.«404230_j6674379178176_3_alg».proof.KernelIdeal
import proofs.«404230_j6674379178176_3_alg».proof.Proof.Gen.KernelIdeal
import proofs.«404230_j6674379178176_3_alg».proof.Proof.Spec

noncomputable section

namespace Cert.KernelIdeal.KTerm

open Cert.KernelIdeal Cert.KernelIdeal.Gen Idealize.ShloMosaic Idealize.ShloMosaic.TcCoe Idealize.ShloMosaic.ValueIdx

variable (x0 : FVec Ideal S50000x128 .f32) (x1 : IVec S2x800000 32)
  (x2 : FVec Ideal S128x256 .f32) (x3 : FVec Ideal S256 .f32)
  (x4 : FVec Ideal S128x256 .f32) (x5 : FVec Ideal S256x128 .f32)
  (x6 : FVec Ideal S128 .f32) (x7 : FVec Ideal S256x128 .f32)

/-- The source node of every edge (row 0 of the edge list). -/
def src : IVec S800000 32 :=
  shapeCast _ (extractStridedSlice S1x800000 ![0, 0] x1 slices_S2x800000_S1x800000_0_0) shapeCasts_S1x800000_S800000

/-- The destination node of every edge (row 1 of the edge list). -/
def dst : IVec S800000 32 :=
  shapeCast _ (extractStridedSlice S1x800000 ![1, 0] x1 slices_S2x800000_S1x800000_1_0) shapeCasts_S1x800000_S800000

/-- The destinations as a column of scatter indices. -/
def dstCol : IVec S800000x1 32 :=
  broadcastInDim S800000x1 ![0] bcast_S800000_S800000x1_0 (dst x1)

/-- The sources, a negative one wrapped around by the node count, as a column of gather indices. -/
def srcCol : IVec S800000x1 32 :=
  broadcastInDim S800000x1 ![0] bcast_S800000_S800000x1_0
    (select (cmpi .slt (src x1) (broadcastInDim S800000 ![] bcast_S_S800000 (constantI S_ 32 0#32)))
      (addi (src x1) (broadcastInDim S800000 ![] bcast_S_S800000 (constantI S_ 32 50000#32))) (src x1))

/-- The in-degree of every node: ones scattered to the destinations and summed. -/
def cnt : FVec Ideal S50000 .f32 :=
  Host.scatterAdd (F := Ideal) scatter_S50000_S800000x1_S800000_n_0_0_1
    (broadcastInDim S50000 ![] bcast_S_S50000 (constant (F := Ideal) S_ .f32 0x00000000#32)) (dstCol x1)
    (broadcastInDim S800000 ![] bcast_S_S800000 (constant (F := Ideal) S_ .f32 0x3F800000#32))

/-- The in-degree clamped below by one. -/
def clamped : FVec Ideal S50000 .f32 :=
  maximumf (F := Ideal) (cnt x1) (broadcastInDim S50000 ![] bcast_S_S50000 (constant (F := Ideal) S_ .f32 0x3F800000#32))

/-- Its reciprocal, as a column. -/
def invCol : FVec Ideal S50000x1 .f32 :=
  shapeCast _ (Host.divf (F := Ideal) (broadcastInDim S50000 ![] bcast_S_S50000 (constant (F := Ideal) S_ .f32 0x3F800000#32)) (clamped x1)) shapeCasts_S50000_S50000x1

/-- The first aggregate: per destination node, the sum of the source rows of `x`. -/
def agg1 : FVec Ideal S50000x128 .f32 :=
  Host.scatterAdd (F := Ideal) scatter_S50000x128_S800000x1_S800000x128_1_0_0_1
    (broadcastInDim S50000x128 ![] bcast_S_S50000x128 (constant (F := Ideal) S_ .f32 0x00000000#32)) (dstCol x1)
    (Host.gather gather_S50000x128_S800000x1_S800000x128_1_0_n_n_0_1_1128 x0 (srcCol x1))

/-- The first mean: the aggregate's rows times the reciprocal degrees. -/
def mean1 : FVec Ideal S50000x128 .bf16 :=
  truncf (F := Ideal) .bf16 (mulf (agg1 x0 x1) (broadcastInDim S50000x128 ![0, 1] bcast_S50000x1_S50000x128_0_1 (invCol x1))) bitsLt_bf16_f32

/-- The hidden features: the first dense stage, rectified. -/
def hid : FVec Ideal S50000x256 .f32 :=
  Cert.Sage.arr2 (Cert.Sage.denseRelu (Ideal.ofBits .f32 0x00000000#32) (mean1 x0 x1)
    (truncf .bf16 x0 bitsLt_bf16_f32) (truncf .bf16 x2 bitsLt_bf16_f32) (truncf .bf16 x4 bitsLt_bf16_f32)
    (fun q => (shapeCast S1x256 x3 shapeCasts_S256_S1x256) (ix2 0 q)))

/-- The second aggregate: per destination node, the sum of the source rows of the hidden features. -/
def agg2 : FVec Ideal S50000x256 .f32 :=
  Host.scatterAdd (F := Ideal) scatter_S50000x256_S800000x1_S800000x256_1_0_0_1
    (broadcastInDim S50000x256 ![] bcast_S_S50000x256 (constant (F := Ideal) S_ .f32 0x00000000#32)) (dstCol x1)
    (Host.gather gather_S50000x256_S800000x1_S800000x256_1_0_n_n_0_1_1256 (hid x0 x1 x2 x3 x4) (srcCol x1))

/-- The second mean. -/
def mean2 : FVec Ideal S50000x256 .bf16 :=
  truncf (F := Ideal) .bf16 (mulf (agg2 x0 x1 x2 x3 x4) (broadcastInDim S50000x256 ![0, 1] bcast_S50000x1_S50000x256_0_1 (invCol x1))) bitsLt_bf16_f32

/-- The program's result: the second dense stage of the second mean and the hidden features. -/
def out : FVec Ideal S50000x128 .f32 :=
  Cert.Sage.arr2 (Cert.Sage.dense (mean2 x0 x1 x2 x3 x4)
    (truncf .bf16 (hid x0 x1 x2 x3 x4) bitsLt_bf16_f32) (truncf .bf16 x5 bitsLt_bf16_f32) (truncf .bf16 x7 bitsLt_bf16_f32)
    (fun q => (shapeCast S1x128 x6 shapeCasts_S128_S1x128) (ix2 0 q)))

end Cert.KernelIdeal.KTerm

end
-- ==== Proof.KValue.lean ====
/-
  The kernel program's result array, read back through the run's fold, is the composition of its eight
  argument arrays that `KTerm.out` names.

  The run is four stretches: host operations, the first dense stage, host operations, the second dense stage.
  The host stretches are read operation by operation at the buffers the dense stages are entered with, over an
  arbitrary valuation of the buffers; a dense stage's result array is its stated whole-array function of the
  arrays it is entered with. Composing the four from the launch memory gives the statement.
-/
import proofs.«404230_j6674379178176_3_alg».proof.Proof.Gen.KernelIdeal.Frame
import proofs.«404230_j6674379178176_3_alg».proof.Proof.Stage0
import proofs.«404230_j6674379178176_3_alg».proof.Proof.Stage1
import proofs.«404230_j6674379178176_3_alg».proof.Proof.KTerm
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx

/-! ## The first stretch of host operations, from any contents `V` of the buffers

Each buffer the first dense stage is entered with, and each buffer the second stretch reads, as a function
of `V` at the argument buffers. -/

section Ops0

variable (V : Valuation τ sig (Elt Ideal))

/-- The sources: row 0 of the edge list. -/
theorem ops0_v1 :
    (StableHlo.after hostOps0 V (Proc.devRef .tc main_v1) : S800000.Idx → BitVec 32)
      = KTerm.src (V (Proc.devRef .tc main_arg1)) := by
  dsimp only [hostOps0]
  after_results_simp
  rfl

/-- The destinations: row 1 of the edge list. -/
theorem ops0_v3 :
    (StableHlo.after hostOps0 V (Proc.devRef .tc main_v3) : S800000.Idx → BitVec 32)
      = KTerm.dst (V (Proc.devRef .tc main_arg1)) := by
  dsimp only [hostOps0]
  after_results_simp
  rfl

/-- The reciprocal clamped in-degree, as a column. -/
theorem ops0_v12 :
    (StableHlo.after hostOps0 V (Proc.devRef .tc main_v12) : S50000x1.Idx → EReal)
      = KTerm.invCol (V (Proc.devRef .tc main_arg1)) := by
  dsimp only [hostOps0]
  after_results_simp
  unfold KTerm.invCol KTerm.clamped KTerm.cnt KTerm.dstCol KTerm.dst
  rfl

/-- The first mean. -/
theorem ops0_v25 :
    (StableHlo.after hostOps0 V (Proc.devRef .tc main_v25) : S50000x128.Idx → EReal)
      = KTerm.mean1 (V (Proc.devRef .tc main_arg0)) (V (Proc.devRef .tc main_arg1)) := by
  dsimp only [hostOps0]
  after_results_simp
  unfold KTerm.mean1 KTerm.agg1 KTerm.invCol KTerm.clamped KTerm.cnt KTerm.dstCol KTerm.srcCol KTerm.dst KTerm.src
  rfl

/-- The node features in the narrower float format. -/
theorem ops0_v26 (x0 : FVec Ideal S50000x128 .f32) (h0 : V (Proc.devRef .tc main_arg0) = x0) :
    StableHlo.after hostOps0 V (Proc.devRef .tc main_v26) = truncf (F := Ideal) .bf16 x0 bitsLt_bf16_f32 := by
  dsimp only [hostOps0]
  after_results_simp
  rw [h0]

/-- The first stage's left weights in the narrower float format. -/
theorem ops0_v27 (x2 : FVec Ideal S128x256 .f32) (h2 : V (Proc.devRef .tc main_arg2) = x2) :
    StableHlo.after hostOps0 V (Proc.devRef .tc main_v27) = truncf (F := Ideal) .bf16 x2 bitsLt_bf16_f32 := by
  dsimp only [hostOps0]
  after_results_simp
  rw [h2]

/-- The first stage's right weights in the narrower float format. -/
theorem ops0_v28 (x4 : FVec Ideal S128x256 .f32) (h4 : V (Proc.devRef .tc main_arg4) = x4) :
    StableHlo.after hostOps0 V (Proc.devRef .tc main_v28) = truncf (F := Ideal) .bf16 x4 bitsLt_bf16_f32 := by
  dsimp only [hostOps0]
  after_results_simp
  rw [h4]

/-- The first stage's bias as a one-row matrix. -/
theorem ops0_v29 (x3 : FVec Ideal S256 .f32) (h3 : V (Proc.devRef .tc main_arg3) = x3) :
    StableHlo.after hostOps0 V (Proc.devRef .tc main_v29) = shapeCast S1x256 x3 shapeCasts_S256_S1x256 := by
  dsimp only [hostOps0]
  after_results_simp
  rw [h3]
  rfl

/-- No operation of the stretch writes an argument. -/
theorem ops0_arg5 :
    StableHlo.after hostOps0 V (Proc.devRef .tc main_arg5) = V (Proc.devRef .tc main_arg5) := by
  dsimp only [hostOps0]
  after_results_simp
theorem ops0_arg6 :
    StableHlo.after hostOps0 V (Proc.devRef .tc main_arg6) = V (Proc.devRef .tc main_arg6) := by
  dsimp only [hostOps0]
  after_results_simp
theorem ops0_arg7 :
    StableHlo.after hostOps0 V (Proc.devRef .tc main_arg7) = V (Proc.devRef .tc main_arg7) := by
  dsimp only [hostOps0]
  after_results_simp

end Ops0

/-! ## The second stretch of host operations, from any contents `V` of the buffers

Entered with the hidden features, the sources, the destinations and the reciprocal-degree column where the
first half of the program left them, it leaves the second dense stage's five arrays. -/

section Ops1

variable (V : Valuation τ sig (Elt Ideal))
variable (x0 : FVec Ideal S50000x128 .f32) (x1 : IVec S2x800000 32)
  (x2 : FVec Ideal S128x256 .f32) (x3 : FVec Ideal S256 .f32) (x4 : FVec Ideal S128x256 .f32)

/-- The second mean. -/
theorem ops1_v43
    (h30 : (V (Proc.devRef .tc main_v30) : S50000x256.Idx → EReal) = KTerm.hid x0 x1 x2 x3 x4)
    (h1 : (V (Proc.devRef .tc main_v1) : S800000.Idx → BitVec 32) = KTerm.src x1)
    (h3 : (V (Proc.devRef .tc main_v3) : S800000.Idx → BitVec 32) = KTerm.dst x1)
    (h12 : (V (Proc.devRef .tc main_v12) : S50000x1.Idx → EReal) = KTerm.invCol x1) :
    (StableHlo.after hostOps1 V (Proc.devRef .tc main_v43) : S50000x256.Idx → EReal)
      = KTerm.mean2 x0 x1 x2 x3 x4 := by
  dsimp only [hostOps1]
  after_results_simp
  rw [h30, h1, h3, h12]
  unfold KTerm.mean2 KTerm.agg2 KTerm.dstCol KTerm.srcCol
  rfl

/-- The hidden features in the narrower float format. -/
theorem ops1_v44
    (h30 : (V (Proc.devRef .tc main_v30) : S50000x256.Idx → EReal) = KTerm.hid x0 x1 x2 x3 x4) :
    (StableHlo.after hostOps1 V (Proc.devRef .tc main_v44) : S50000x256.Idx → EReal)
      = truncf .bf16 (KTerm.hid x0 x1 x2 x3 x4) bitsLt_bf16_f32 := by
  dsimp only [hostOps1]
  after_results_simp
  rw [h30]

/-- The second stage's left weights in the narrower float format. -/
theorem ops1_v45 (x5 : FVec Ideal S256x128 .f32) (h5 : V (Proc.devRef .tc main_arg5) = x5) :
    StableHlo.after hostOps1 V (Proc.devRef .tc main_v45) = truncf (F := Ideal) .bf16 x5 bitsLt_bf16_f32 := by
  dsimp only [hostOps1]
  after_results_simp
  rw [h5]

/-- The second stage's right weights in the narrower float format. -/
theorem ops1_v46 (x7 : FVec Ideal S256x128 .f32) (h7 : V (Proc.devRef .tc main_arg7) = x7) :
    StableHlo.after hostOps1 V (Proc.devRef .tc main_v46) = truncf (F := Ideal) .bf16 x7 bitsLt_bf16_f32 := by
  dsimp only [hostOps1]
  after_results_simp
  rw [h7]

/-- The second stage's bias as a one-row matrix. -/
theorem ops1_v47 (x6 : FVec Ideal S128 .f32) (h6 : V (Proc.devRef .tc main_arg6) = x6) :
    StableHlo.after hostOps1 V (Proc.devRef .tc main_v47) = shapeCast S1x128 x6 shapeCasts_S128_S1x128 := by
  dsimp only [hostOps1]
  after_results_simp
  rw [h6]
  rfl

end Ops1

/-! ## The run from the launch memory

`W1 … W4` are the buffer contents at the four boundaries of the run. Each is read only at the buffers the
next stretch needs. -/

section Run

variable (m : (ℓ : Loc nD τ sig) → Buf (Elt Ideal) ℓ) (ρ : Dev nD → PrngReg) (c : Dev nD)

/-! ### At the first dense stage's entry -/

theorem V1_v25 : V1 (F := Ideal) m ρ c main_v25
    = KTerm.mean1 (m ((c.tc : Thread nD τ).loc main_arg0)) (m ((c.tc : Thread nD τ).loc main_arg1)) :=
  ops0_v25 (W0 m ρ c)
theorem V1_v26 : V1 (F := Ideal) m ρ c main_v26
    = truncf (F := Ideal) .bf16 (m ((c.tc : Thread nD τ).loc main_arg0)) bitsLt_bf16_f32 :=
  ops0_v26 (W0 m ρ c) _ rfl
theorem V1_v27 : V1 (F := Ideal) m ρ c main_v27
    = truncf (F := Ideal) .bf16 (m ((c.tc : Thread nD τ).loc main_arg2)) bitsLt_bf16_f32 :=
  ops0_v27 (W0 m ρ c) _ rfl
theorem V1_v28 : V1 (F := Ideal) m ρ c main_v28
    = truncf (F := Ideal) .bf16 (m ((c.tc : Thread nD τ).loc main_arg4)) bitsLt_bf16_f32 :=
  ops0_v28 (W0 m ρ c) _ rfl
theorem V1_v29 : V1 (F := Ideal) m ρ c main_v29
    = shapeCast S1x256 (m ((c.tc : Thread nD τ).loc main_arg3)) shapeCasts_S256_S1x256 :=
  ops0_v29 (W0 m ρ c) _ rfl

/-! ### At the first dense stage's exit -/

/-- The first dense stage leaves the hidden features. -/
theorem W2_v30 : W2 (F := Ideal) m ρ c (Proc.devRef .tc main_v30)
    = KTerm.hid (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (W2_arr m ρ c 5).trans ?_
  refine (Stage0.final (V1 m ρ) c).trans ?_
  rw [V1_v25 m ρ c, V1_v26 m ρ c, V1_v27 m ρ c, V1_v28 m ρ c, V1_v29 m ρ c]
  unfold KTerm.hid
  rfl

/-- It writes none of the other buffers the second stretch reads. -/
theorem W2_v1 : W2 (F := Ideal) m ρ c (Proc.devRef .tc main_v1) = KTerm.src (m ((c.tc : Thread nD τ).loc main_arg1)) :=
  (W2_of_ne m ρ c main_v1 (by decide)).trans (ops0_v1 (W0 m ρ c))
theorem W2_v3 : W2 (F := Ideal) m ρ c (Proc.devRef .tc main_v3) = KTerm.dst (m ((c.tc : Thread nD τ).loc main_arg1)) :=
  (W2_of_ne m ρ c main_v3 (by decide)).trans (ops0_v3 (W0 m ρ c))
theorem W2_v12 : W2 (F := Ideal) m ρ c (Proc.devRef .tc main_v12) = KTerm.invCol (m ((c.tc : Thread nD τ).loc main_arg1)) :=
  (W2_of_ne m ρ c main_v12 (by decide)).trans (ops0_v12 (W0 m ρ c))
theorem W2_arg5 : W2 (F := Ideal) m ρ c (Proc.devRef .tc main_arg5) = m ((c.tc : Thread nD τ).loc main_arg5) :=
  (W2_of_ne m ρ c main_arg5 (by decide)).trans (ops0_arg5 (W0 m ρ c))
theorem W2_arg6 : W2 (F := Ideal) m ρ c (Proc.devRef .tc main_arg6) = m ((c.tc : Thread nD τ).loc main_arg6) :=
  (W2_of_ne m ρ c main_arg6 (by decide)).trans (ops0_arg6 (W0 m ρ c))
theorem W2_arg7 : W2 (F := Ideal) m ρ c (Proc.devRef .tc main_arg7) = m ((c.tc : Thread nD τ).loc main_arg7) :=
  (W2_of_ne m ρ c main_arg7 (by decide)).trans (ops0_arg7 (W0 m ρ c))

/-! ### At the second dense stage's entry -/

theorem V3_v43 : V3 (F := Ideal) m ρ c main_v43
    = KTerm.mean2 (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) :=
  ops1_v43 (W2 m ρ c) _ _ _ _ _ (W2_v30 m ρ c) (W2_v1 m ρ c) (W2_v3 m ρ c) (W2_v12 m ρ c)
theorem V3_v44 : V3 (F := Ideal) m ρ c main_v44
    = truncf (F := Ideal) .bf16 (KTerm.hid (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4))) bitsLt_bf16_f32 :=
  ops1_v44 (W2 m ρ c) _ _ _ _ _ (W2_v30 m ρ c)
theorem V3_v45 : V3 (F := Ideal) m ρ c main_v45
    = truncf (F := Ideal) .bf16 (m ((c.tc : Thread nD τ).loc main_arg5)) bitsLt_bf16_f32 :=
  ops1_v45 (W2 m ρ c) _ (W2_arg5 m ρ c)
theorem V3_v46 : V3 (F := Ideal) m ρ c main_v46
    = truncf (F := Ideal) .bf16 (m ((c.tc : Thread nD τ).loc main_arg7)) bitsLt_bf16_f32 :=
  ops1_v46 (W2 m ρ c) _ (W2_arg7 m ρ c)
theorem V3_v47 : V3 (F := Ideal) m ρ c main_v47
    = shapeCast S1x128 (m ((c.tc : Thread nD τ).loc main_arg6)) shapeCasts_S128_S1x128 :=
  ops1_v47 (W2 m ρ c) _ (W2_arg6 m ρ c)

/-! ### At the return -/

/-- The result array at the return is the composition `KTerm.out` of the launch memory's argument arrays. -/
theorem W4_out :
    W4 (F := Ideal) m ρ c (Proc.devRef .tc main_v48)
      = KTerm.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  refine (W4_arr m ρ c 5).trans ?_
  refine (Stage1.final (V3 m ρ) c).trans ?_
  rw [V3_v43 m ρ c, V3_v44 m ρ c, V3_v45 m ρ c, V3_v46 m ρ c, V3_v47 m ρ c]
  unfold KTerm.out
  rfl

end Run

end Cert.KernelIdeal.KValue

end
-- ==== Proof.RefValue.lean ====
/-
  What the reference computes, read stage by stage at an index.
-/
import proofs.«404230_j6674379178176_3_alg».proof.Proof.Gen.ReferenceIdeal.Run
import proofs.«404230_j6674379178176_3_alg».proof.Proof.Gen.ReferenceIdeal.Read
import proofs.«404230_j6674379178176_3_alg».proof.Proof.Spec

noncomputable section

namespace Cert.ReferenceIdeal.RefValue

open Cert.ReferenceIdeal Cert.ReferenceIdeal.Read Idealize.ShloMosaic Idealize.ShloMosaic.ValueIdx
open scoped BigOperators

/-! Index bookkeeping: the index functions of the layout operations and contractions, at an index given by
    its coordinates. -/

private theorem lidx23 (r : Fin 50000) (q : Fin 256) (k : Fin 128) : lidx_main_v23 (ix2 r q) k = ix2 r k :=
  funext fun a => Fin.ext (by match a with | ⟨0, _⟩ => rfl | ⟨1, _⟩ => rfl)
private theorem ridx23 (r : Fin 50000) (q : Fin 256) (k : Fin 128) : ridx_main_v23 (ix2 r q) k = ix2 k q :=
  funext fun a => Fin.ext (by match a with | ⟨0, _⟩ => rfl | ⟨1, _⟩ => rfl)
private theorem lidx27 (r : Fin 50000) (q : Fin 256) (k : Fin 128) : lidx_main_v27 (ix2 r q) k = ix2 r k :=
  funext fun a => Fin.ext (by match a with | ⟨0, _⟩ => rfl | ⟨1, _⟩ => rfl)
private theorem ridx27 (r : Fin 50000) (q : Fin 256) (k : Fin 128) : ridx_main_v27 (ix2 r q) k = ix2 k q :=
  funext fun a => Fin.ext (by match a with | ⟨0, _⟩ => rfl | ⟨1, _⟩ => rfl)
private theorem idx2021 (r : Fin 50000) (k : Fin 128) : idx_main_v20 (idx_main_v21 (ix2 r k)) = ix1 r :=
  funext fun a => Fin.ext (by match a with | ⟨0, _⟩ => rfl)
private theorem idx2425 (r : Fin 50000) (q : Fin 256) : idx_main_v24 (idx_main_v25 (ix2 r q)) = ix1 q :=
  funext fun a => Fin.ext (by match a with | ⟨0, _⟩ => rfl)

private theorem lidx49 (r : Fin 50000) (q : Fin 128) (k : Fin 256) : lidx_main_v49 (ix2 r q) k = ix2 r k :=
  funext fun a => Fin.ext (by match a with | ⟨0, _⟩ => rfl | ⟨1, _⟩ => rfl)
private theorem ridx49 (r : Fin 50000) (q : Fin 128) (k : Fin 256) : ridx_main_v49 (ix2 r q) k = ix2 k q :=
  funext fun a => Fin.ext (by match a with | ⟨0, _⟩ => rfl | ⟨1, _⟩ => rfl)
private theorem lidx53 (r : Fin 50000) (q : Fin 128) (k : Fin 256) : lidx_main_v53 (ix2 r q) k = ix2 r k :=
  funext fun a => Fin.ext (by match a with | ⟨0, _⟩ => rfl | ⟨1, _⟩ => rfl)
private theorem ridx53 (r : Fin 50000) (q : Fin 128) (k : Fin 256) : ridx_main_v53 (ix2 r q) k = ix2 k q :=
  funext fun a => Fin.ext (by match a with | ⟨0, _⟩ => rfl | ⟨1, _⟩ => rfl)
private theorem idx4647 (r : Fin 50000) (k : Fin 256) : idx_main_v46 (idx_main_v47 (ix2 r k)) = ix1 r :=
  funext fun a => Fin.ext (by match a with | ⟨0, _⟩ => rfl)
private theorem idx5051 (r : Fin 50000) (q : Fin 128) : idx_main_v50 (idx_main_v51 (ix2 r q)) = ix1 q :=
  funext fun a => Fin.ext (by match a with | ⟨0, _⟩ => rfl)

/-- The hidden features: the rectified first stage, over the first aggregate and the clamped in-degree. -/
theorem hid_eq
    (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S128x256, .f32⟩ : BufTy).Contents (Elt Ideal)) :
    val_main_v29 (F := Ideal) x0 x1 x2 x3 x4
      = Cert.Sage.arr2 (Cert.Sage.denseRelu (Ideal.ofBits .f32 0x00000000#32)
          (Cert.Sage.arr2 (Cert.Sage.meanBy (val_main_v13 (F := Ideal) x0 x1) (fun r => val_main_v19 (F := Ideal) x1 (ix1 r))))
          x0 x2 x4 (fun q => x3 (ix1 q))) := by
  funext i
  obtain ⟨r, q, rfl⟩ : ∃ (r : Fin 50000) (q : Fin 256), i = ix2 r q := ⟨i 0, i 1, eq_ix2 i⟩
  -- one summand of the first contraction: the mean at (r, k) against the weight at (k, q)
  have h1 : ∀ k : Fin 128,
      val_main_v22 (F := Ideal) x0 x1 (lidx_main_v23 (ix2 r q) k) * x2 (ridx_main_v23 (ix2 r q) k)
        = Cert.Sage.arr2 (Cert.Sage.meanBy (val_main_v13 (F := Ideal) x0 x1)
            (fun r => val_main_v19 (F := Ideal) x1 (ix1 r))) (ix2 r k) * x2 (ix2 k q) := by
    intro k
    rw [lidx23, ridx23, val_main_v22_apply, val_main_v21_apply, val_main_v20_apply, idx2021, Cert.Sage.arr2_ix2]
    generalize val_main_v13 (F := Ideal) x0 x1 = S
    generalize val_main_v19 (F := Ideal) x1 = c
    rfl
  -- one summand of the second contraction: the node's own features at (r, k) against the weight at (k, q)
  have h2 : ∀ k : Fin 128,
      x0 (lidx_main_v27 (ix2 r q) k) * x4 (ridx_main_v27 (ix2 r q) k) = x0 (ix2 r k) * x4 (ix2 k q) := by
    intro k
    rw [lidx27, ridx27]
  rw [val_main_v29_apply, val_main_v28_apply, val_main_v26_apply, val_main_v23_apply, val_main_v25_apply,
    val_main_v24_apply, val_main_v27_apply, val_main_call0_v0_apply, val_main_call0_cst_apply, idx2425,
    Finset.sum_congr rfl (fun k _ => h1 k), Finset.sum_congr rfl (fun k _ => h2 k), Cert.Sage.arr2_ix2]
  generalize Cert.Sage.arr2 (Cert.Sage.meanBy (val_main_v13 (F := Ideal) x0 x1)
            (fun r => val_main_v19 (F := Ideal) x1 (ix1 r))) = M
  rfl

/-- The result: the affine second stage, over the second aggregate, the clamped in-degree and the hidden features. -/
theorem out_eq
    (x0 : (⟨S50000x128, .f32⟩ : BufTy).Contents (Elt Ideal)) (x1 : (⟨S2x800000, .i32⟩ : BufTy).Contents (Elt Ideal))
    (x2 : (⟨S128x256, .f32⟩ : BufTy).Contents (Elt Ideal)) (x3 : (⟨S256, .f32⟩ : BufTy).Contents (Elt Ideal))
    (x4 : (⟨S128x256, .f32⟩ : BufTy).Contents (Elt Ideal)) (x5 : (⟨S256x128, .f32⟩ : BufTy).Contents (Elt Ideal))
    (x6 : (⟨S128, .f32⟩ : BufTy).Contents (Elt Ideal)) (x7 : (⟨S256x128, .f32⟩ : BufTy).Contents (Elt Ideal)) :
    val_main_v54 (F := Ideal) x0 x1 x2 x3 x4 x5 x6 x7
      = Cert.Sage.arr2 (Cert.Sage.dense
          (Cert.Sage.arr2 (Cert.Sage.meanBy (val_main_v39 (F := Ideal) x0 x1 x2 x3 x4) (fun r => val_main_v45 (F := Ideal) x1 (ix1 r))))
          (val_main_v29 (F := Ideal) x0 x1 x2 x3 x4) x5 x7 (fun q => x6 (ix1 q))) := by
  funext i
  obtain ⟨r, q, rfl⟩ : ∃ (r : Fin 50000) (q : Fin 128), i = ix2 r q := ⟨i 0, i 1, eq_ix2 i⟩
  -- one summand of the first contraction: the mean at (r, k) against the weight at (k, q)
  have h1 : ∀ k : Fin 256,
      val_main_v48 (F := Ideal) x0 x1 x2 x3 x4 (lidx_main_v49 (ix2 r q) k) * x5 (ridx_main_v49 (ix2 r q) k)
        = Cert.Sage.arr2 (Cert.Sage.meanBy (val_main_v39 (F := Ideal) x0 x1 x2 x3 x4)
            (fun r => val_main_v45 (F := Ideal) x1 (ix1 r))) (ix2 r k) * x5 (ix2 k q) := by
    intro k
    rw [lidx49, ridx49, val_main_v48_apply, val_main_v47_apply, val_main_v46_apply, idx4647, Cert.Sage.arr2_ix2]
    generalize val_main_v39 (F := Ideal) x0 x1 x2 x3 x4 = S
    generalize val_main_v45 (F := Ideal) x1 = c
    rfl
  -- one summand of the second contraction: the hidden features at (r, k) against the weight at (k, q)
  have h2 : ∀ k : Fin 256,
      val_main_v29 (F := Ideal) x0 x1 x2 x3 x4 (lidx_main_v53 (ix2 r q) k) * x7 (ridx_main_v53 (ix2 r q) k)
        = val_main_v29 (F := Ideal) x0 x1 x2 x3 x4 (ix2 r k) * x7 (ix2 k q) := by
    intro k
    rw [lidx53, ridx53]
  rw [val_main_v54_apply, val_main_v52_apply, val_main_v49_apply, val_main_v51_apply, val_main_v50_apply,
    val_main_v53_apply, idx5051,
    Finset.sum_congr rfl (fun k _ => h1 k), Finset.sum_congr rfl (fun k _ => h2 k), Cert.Sage.arr2_ix2]
  generalize Cert.Sage.arr2 (Cert.Sage.meanBy (val_main_v39 (F := Ideal) x0 x1 x2 x3 x4)
            (fun r => val_main_v45 (F := Ideal) x1 (ix1 r))) = M
  generalize val_main_v29 (F := Ideal) x0 x1 x2 x3 x4 = H
  rfl

end Cert.ReferenceIdeal.RefValue

end
-- ==== Proof.Layout.lean ====
/-
  Two layout steps of the host program read at an index: a column `[a, 1]` spread over the `b` features of an
  `[a, b]` matrix holds at (`p`, `c`) the column's entry `p`; a vector `[b]` viewed as a one-row matrix `[1, b]`
  holds at (0, `q`) the vector's entry `q`.
-/
import Idealize.ShloMosaic.Lib.ValueIdx
import Idealize.ShloMosaic.Lib.Pipeline.Value

noncomputable section

namespace Cert.Sage.Layout

open Idealize.ShloMosaic Idealize.ShloMosaic.ValueIdx

/-- A column spread along the second axis: every entry of row `p` is the column's entry `p`. -/
theorem bcastCol_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A vector as a one-row matrix: the row's entry `q` is the vector's entry `q` (both at row-major position `q`). -/
theorem shapeCast_row_apply {α : Type} {b : ℕ} (x : (⟨1, ![b]⟩ : Shape).Idx → α)
    (h : (⟨1, ![b]⟩ : Shape).ShapeCasts ⟨2, ![1, b]⟩) (q : Fin b) :
    shapeCast ⟨2, ![1, b]⟩ x h (ix2 (0 : Fin 1) q) = x (ix1 q) :=
  shapeCast_apply x h _ _ (by
    rw [Shape.rowMajor_val_two, Shape.rowMajor_val_one]
    show q.val = 0 * b + q.val
    omega)

end Cert.Sage.Layout

end
-- ==== Proof.LibKeepdimsColumn.lean ====
/-
  A vector kept as one column, read at an index: an array of shape [a] viewed as [a, 1] holds at (i, u) the entry i of
  the vector (the unit coordinate carries nothing), and an [a, 1] column broadcast to [a, b] holds at (p, c) the
  column's entry p, whatever the column c. These are the two layout steps of a row reduction that keeps its axis
  (a sum over the lanes stored as a column and spread back over the lanes).
-/
import Idealize.ShloMosaic.Lib.ValueIdx
import Idealize.ShloMosaic.Lib.Pipeline.Value

noncomputable section

namespace Cert.Lib.KeepdimsColumn

open Idealize.ShloMosaic Idealize.ShloMosaic.ValueIdx

/-- An `[a]` array cast to `[a, 1]` reads, at `(i, u)`, the operand at `i`, whatever the unit coordinate `u`:
    both have row-major position `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`: the row axis is
    kept (also when `a = 1`, where `p = 0`), the unit column axis is spread. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.KeepdimsColumn

end
-- ==== Proof.Bridge.lean ====
/-
  The kernel program and the reference compute one function of the eight arguments.

  Both programs cut the edge list into sources and destinations the same way, wrap a negative source the same
  way, count in-degrees by the same scattered sum of ones and clamp them below by one, and aggregate by the same
  gather and scattered sum; those steps are the same operations on the same operands and are carried along
  unopened. They part in two places only. The mean: the reference divides the aggregate's row by the clamped
  degree, the kernel multiplies it by the reciprocal `1 / c` laid out as a column; the clamped degree is at least one,
  so it is not zero, and on the extended reals dividing by a nonzero number IS multiplying by its reciprocal. The
  dense stage: the kernel computes it block of rows by block of rows with the bias as a one-row matrix and the
  operands in a narrower float format, which at the extended reals changes nothing, entry by entry.
-/
import proofs.«404230_j6674379178176_3_alg».proof.Proof.KTerm
import proofs.«404230_j6674379178176_3_alg».proof.Proof.RefValue
import proofs.«404230_j6674379178176_3_alg».proof.Proof.Layout
import proofs.«404230_j6674379178176_3_alg».proof.Proof.LibKeepdimsColumn

noncomputable section

namespace Cert.Bridge

open Idealize.ShloMosaic Idealize.ShloMosaic.ValueIdx
open Cert.KernelIdeal (S50000x128 S2x800000 S128x256 S256 S256x128 S128 S50000x256 S50000 S50000x1)

variable (x0 : FVec Ideal S50000x128 .f32) (x1 : IVec S2x800000 32)
  (x2 : FVec Ideal S128x256 .f32) (x3 : FVec Ideal S256 .f32)
  (x4 : FVec Ideal S128x256 .f32) (x5 : FVec Ideal S256x128 .f32)
  (x6 : FVec Ideal S128 .f32) (x7 : FVec Ideal S256x128 .f32)

/-! ## The shared integer and counting steps are the same terms -/

theorem dstCol_v12 : Cert.KernelIdeal.KTerm.dstCol x1 = Cert.ReferenceIdeal.Read.val_main_v12 (F := Ideal) x1 := by
  unfold Cert.KernelIdeal.KTerm.dstCol Cert.KernelIdeal.KTerm.dst Cert.ReferenceIdeal.Read.val_main_v12 Cert.ReferenceIdeal.Read.val_main_v3 Cert.ReferenceIdeal.Read.val_main_v2
  rfl

theorem srcCol_v9 : Cert.KernelIdeal.KTerm.srcCol x1 = Cert.ReferenceIdeal.Read.val_main_v9 (F := Ideal) x1 := by
  unfold Cert.KernelIdeal.KTerm.srcCol Cert.KernelIdeal.KTerm.src Cert.ReferenceIdeal.Read.val_main_v9 Cert.ReferenceIdeal.Read.val_main_v8 Cert.ReferenceIdeal.Read.val_main_v7 Cert.ReferenceIdeal.Read.val_main_v6 Cert.ReferenceIdeal.Read.val_main_c_0 Cert.ReferenceIdeal.Read.val_main_v5 Cert.ReferenceIdeal.Read.val_main_v4 Cert.ReferenceIdeal.Read.val_main_c Cert.ReferenceIdeal.Read.val_main_v1 Cert.ReferenceIdeal.Read.val_main_v0
  rfl

theorem agg1_v13 : Cert.KernelIdeal.KTerm.agg1 x0 x1 = Cert.ReferenceIdeal.Read.val_main_v13 (F := Ideal) x0 x1 := by
  unfold Cert.KernelIdeal.KTerm.agg1 Cert.ReferenceIdeal.Read.val_main_v13 Cert.ReferenceIdeal.Read.val_main_v10 Cert.ReferenceIdeal.Read.val_main_v11 Cert.ReferenceIdeal.Read.val_main_cst
  rw [dstCol_v12, srcCol_v9]
  rfl

theorem dstCol_v16 : Cert.KernelIdeal.KTerm.dstCol x1 = Cert.ReferenceIdeal.Read.val_main_v16 (F := Ideal) x1 := by
  unfold Cert.KernelIdeal.KTerm.dstCol Cert.KernelIdeal.KTerm.dst Cert.ReferenceIdeal.Read.val_main_v16 Cert.ReferenceIdeal.Read.val_main_v3 Cert.ReferenceIdeal.Read.val_main_v2
  rfl

theorem dstCol_v38 : Cert.KernelIdeal.KTerm.dstCol x1 = Cert.ReferenceIdeal.Read.val_main_v38 (F := Ideal) x1 := by
  unfold Cert.KernelIdeal.KTerm.dstCol Cert.KernelIdeal.KTerm.dst Cert.ReferenceIdeal.Read.val_main_v38 Cert.ReferenceIdeal.Read.val_main_v3 Cert.ReferenceIdeal.Read.val_main_v2
  rfl

theorem dstCol_v42 : Cert.KernelIdeal.KTerm.dstCol x1 = Cert.ReferenceIdeal.Read.val_main_v42 (F := Ideal) x1 := by
  unfold Cert.KernelIdeal.KTerm.dstCol Cert.KernelIdeal.KTerm.dst Cert.ReferenceIdeal.Read.val_main_v42 Cert.ReferenceIdeal.Read.val_main_v3 Cert.ReferenceIdeal.Read.val_main_v2
  rfl

theorem srcCol_v35 : Cert.KernelIdeal.KTerm.srcCol x1 = Cert.ReferenceIdeal.Read.val_main_v35 (F := Ideal) x1 := by
  unfold Cert.KernelIdeal.KTerm.srcCol Cert.KernelIdeal.KTerm.src Cert.ReferenceIdeal.Read.val_main_v35 Cert.ReferenceIdeal.Read.val_main_v34 Cert.ReferenceIdeal.Read.val_main_v33 Cert.ReferenceIdeal.Read.val_main_v32 Cert.ReferenceIdeal.Read.val_main_c_5 Cert.ReferenceIdeal.Read.val_main_v31 Cert.ReferenceIdeal.Read.val_main_v30 Cert.ReferenceIdeal.Read.val_main_c_4 Cert.ReferenceIdeal.Read.val_main_v1 Cert.ReferenceIdeal.Read.val_main_v0
  rfl

/-- The clamped in-degree, as the reference's first stage spells it. -/
theorem clamped_v19 : Cert.KernelIdeal.KTerm.clamped x1 = Cert.ReferenceIdeal.Read.val_main_v19 (F := Ideal) x1 := by
  unfold Cert.KernelIdeal.KTerm.clamped Cert.KernelIdeal.KTerm.cnt Cert.ReferenceIdeal.Read.val_main_v19 Cert.ReferenceIdeal.Read.val_main_v18 Cert.ReferenceIdeal.Read.val_main_cst_3 Cert.ReferenceIdeal.Read.val_main_v17 Cert.ReferenceIdeal.Read.val_main_v15 Cert.ReferenceIdeal.Read.val_main_cst_2 Cert.ReferenceIdeal.Read.val_main_v14 Cert.ReferenceIdeal.Read.val_main_cst_1
  rw [dstCol_v16]
  rfl

/-- The clamped in-degree, as the reference's second stage spells it. -/
theorem clamped_v45 : Cert.KernelIdeal.KTerm.clamped x1 = Cert.ReferenceIdeal.Read.val_main_v45 (F := Ideal) x1 := by
  unfold Cert.KernelIdeal.KTerm.clamped Cert.KernelIdeal.KTerm.cnt Cert.ReferenceIdeal.Read.val_main_v45 Cert.ReferenceIdeal.Read.val_main_v44 Cert.ReferenceIdeal.Read.val_main_cst_9 Cert.ReferenceIdeal.Read.val_main_v43 Cert.ReferenceIdeal.Read.val_main_v41 Cert.ReferenceIdeal.Read.val_main_cst_8 Cert.ReferenceIdeal.Read.val_main_v40 Cert.ReferenceIdeal.Read.val_main_cst_7
  rw [dstCol_v42]
  rfl

/-! ## The mean's two spellings -/

/-- The clamped in-degree of a node is the larger of its count and one. -/
theorem clamped_apply (i : S50000.Idx) :
    Cert.KernelIdeal.KTerm.clamped x1 i = max (Cert.KernelIdeal.KTerm.cnt x1 i) (Ideal.ofBits .f32 0x3F800000#32) := by
  unfold Cert.KernelIdeal.KTerm.clamped
  rw [maximumf_apply]
  refine congrArg (max _) ?_
  exact (broadcastInDim_apply _ _ _ i ix0 (fun a => a.elim0)).trans rfl

theorem clamped_ne_zero (i : S50000.Idx) : Cert.KernelIdeal.KTerm.clamped x1 i ≠ 0 := by
  rw [clamped_apply]
  exact Cert.Sage.max_ne_zero _ (by rw [Cert.Sage.ofBits_one]; exact zero_lt_one)

/-- A change of float format is the identity on extended reals. -/
theorem truncf_id {s : Shape} (a : FVec Ideal s .f32) (h : FTy.bf16.bits < FTy.f32.bits) : truncf (F := Ideal) .bf16 a h = a := rfl

/-- The host's quotient of two arrays, at an index. -/
theorem hostDivf_apply {s : Shape} (a b : FVec Ideal s .f32) (i : s.Idx) :
    Host.divf (F := Ideal) a b i = Ideal.div (a i) (b i) := rfl

/-- An aggregate's entry times the reciprocal column spread over the features is the entry divided by the node's
    clamped degree. -/
theorem mean_spell {b : ℕ} (S : (⟨2, ![50000, b]⟩ : Shape).Idx → EReal)
    (h : (⟨2, ![50000, 1]⟩ : Shape).BroadcastsInDim ⟨2, ![50000, b]⟩ ![0, 1]) (r : Fin 50000) (q : Fin b) :
    S (ix2 r q) * broadcastInDim ⟨2, ![50000, b]⟩ ![0, 1] h (Cert.KernelIdeal.KTerm.invCol x1) (ix2 r q)
      = Ideal.div (S (ix2 r q)) (Cert.KernelIdeal.KTerm.clamped x1 (ix1 r)) := by
  rw [Cert.Sage.Layout.bcastCol_apply]
  unfold Cert.KernelIdeal.KTerm.invCol
  rw [Cert.Lib.KeepdimsColumn.shapeCast_a_a1_apply]
  have hone : (broadcastInDim S50000 ![] Cert.KernelIdeal.Gen.bcast_S_S50000 (constant (F := Ideal) Cert.KernelIdeal.S_ .f32 0x3F800000#32)) (ix1 r)
      = Ideal.ofBits .f32 0x3F800000#32 :=
    (broadcastInDim_apply _ _ _ (ix1 r) ix0 (fun a => a.elim0)).trans rfl
  rw [hostDivf_apply, hone]
  exact Cert.Sage.mul_div_one _ _ _ (clamped_ne_zero x1 _) Cert.Sage.ofBits_one

/-- The kernel's first mean is the first aggregate's rows divided by the clamped degrees. -/
theorem mean1_eq : Cert.KernelIdeal.KTerm.mean1 x0 x1
    = Cert.Sage.arr2 (Cert.Sage.meanBy (Cert.ReferenceIdeal.Read.val_main_v13 (F := Ideal) x0 x1)
        (fun r => Cert.ReferenceIdeal.Read.val_main_v19 (F := Ideal) x1 (ix1 r))) := by
  funext i
  obtain ⟨r, q, rfl⟩ : ∃ (r : Fin 50000) (q : Fin 128), i = ix2 r q := ⟨i 0, i 1, eq_ix2 i⟩
  rw [Cert.Sage.arr2_ix2, ← agg1_v13, ← clamped_v19]
  unfold Cert.KernelIdeal.KTerm.mean1 Cert.Sage.meanBy
  generalize Cert.KernelIdeal.KTerm.agg1 x0 x1 = S
  rw [truncf_apply, mulf_apply]
  exact mean_spell x1 S Cert.KernelIdeal.Gen.bcast_S50000x1_S50000x128_0_1 r q

/-- The hidden features are the same array in both programs. -/
theorem hid_v29 : Cert.KernelIdeal.KTerm.hid x0 x1 x2 x3 x4 = Cert.ReferenceIdeal.Read.val_main_v29 (F := Ideal) x0 x1 x2 x3 x4 := by
  have hb : (fun q : Fin 256 => (shapeCast Cert.KernelIdeal.S1x256 x3 Cert.KernelIdeal.Gen.shapeCasts_S256_S1x256) (ix2 0 q)) = fun q => x3 (ix1 q) :=
    funext fun q => Cert.Sage.Layout.shapeCast_row_apply x3 _ q
  rw [Cert.ReferenceIdeal.RefValue.hid_eq]
  unfold Cert.KernelIdeal.KTerm.hid
  rw [mean1_eq, hb]
  rfl

/-- The second aggregate is the same array in both programs. -/
theorem agg2_v39 : Cert.KernelIdeal.KTerm.agg2 x0 x1 x2 x3 x4 = Cert.ReferenceIdeal.Read.val_main_v39 (F := Ideal) x0 x1 x2 x3 x4 := by
  unfold Cert.KernelIdeal.KTerm.agg2 Cert.ReferenceIdeal.Read.val_main_v39 Cert.ReferenceIdeal.Read.val_main_v36 Cert.ReferenceIdeal.Read.val_main_v37 Cert.ReferenceIdeal.Read.val_main_cst_6
  rw [hid_v29, dstCol_v38, srcCol_v35]
  rfl

/-- The kernel's second mean is the second aggregate's rows divided by the clamped degrees. -/
theorem mean2_eq : Cert.KernelIdeal.KTerm.mean2 x0 x1 x2 x3 x4
    = Cert.Sage.arr2 (Cert.Sage.meanBy (Cert.ReferenceIdeal.Read.val_main_v39 (F := Ideal) x0 x1 x2 x3 x4)
        (fun r => Cert.ReferenceIdeal.Read.val_main_v45 (F := Ideal) x1 (ix1 r))) := by
  funext i
  obtain ⟨r, q, rfl⟩ : ∃ (r : Fin 50000) (q : Fin 256), i = ix2 r q := ⟨i 0, i 1, eq_ix2 i⟩
  rw [Cert.Sage.arr2_ix2, ← agg2_v39, ← clamped_v45]
  unfold Cert.KernelIdeal.KTerm.mean2 Cert.Sage.meanBy
  generalize Cert.KernelIdeal.KTerm.agg2 x0 x1 x2 x3 x4 = S
  rw [truncf_apply, mulf_apply]
  exact mean_spell x1 S Cert.KernelIdeal.Gen.bcast_S50000x1_S50000x256_0_1 r q

/-- THE RESULT: the kernel program's composition of its arguments is the reference's last stage. -/
theorem out_v54 : Cert.KernelIdeal.KTerm.out x0 x1 x2 x3 x4 x5 x6 x7
    = Cert.ReferenceIdeal.Read.val_main_v54 (F := Ideal) x0 x1 x2 x3 x4 x5 x6 x7 := by
  have hb : (fun q : Fin 128 => (shapeCast Cert.KernelIdeal.S1x128 x6 Cert.KernelIdeal.Gen.shapeCasts_S128_S1x128) (ix2 0 q)) = fun q => x6 (ix1 q) :=
    funext fun q => Cert.Sage.Layout.shapeCast_row_apply x6 _ q
  rw [Cert.ReferenceIdeal.RefValue.out_eq]
  unfold Cert.KernelIdeal.KTerm.out
  rw [mean2_eq, hb, hid_v29]
  generalize Cert.ReferenceIdeal.Read.val_main_v29 (F := Ideal) x0 x1 x2 x3 x4 = H
  rw [truncf_id, truncf_id, truncf_id]

end Cert.Bridge

end
-- ==== Proof.lean ====
/-
  A two-layer GraphSAGE encoder with mean aggregation, as a TPU program of two pallas_calls among host operations,
  against its plain reference, over the extended reals.

  Each layer is `mean · W_l + b + x · W_r` with `mean` the per-destination average of the source rows (the sum of
  the gathered rows scattered to their destinations, over the in-degree clamped below by one); the first layer is
  rectified and feeds the second. The kernel program counts the degrees once and multiplies by their reciprocals
  where the reference divides, and runs each layer's dense part on the TensorCore block of rows by block of rows.

  The three frames are the generated ones (the reference's is its generated run with the result dropped). For the
  equivalence, the kernel program's run is the generated launch with the result buffer read as well, its contents
  read back through the two regions and the host stretches to one composition of the arguments; the reference's
  run is generated and read stage by stage; the two compositions are one function because dividing by a degree
  that is at least one is multiplying by its reciprocal, and a change of float format or of tiling changes no
  entry. The finiteness precondition is never used.
-/
import proofs.«404230_j6674379178176_3_alg».proof.Defs
import proofs.«404230_j6674379178176_3_alg».proof.Proof.Gen.Kernel
import proofs.«404230_j6674379178176_3_alg».proof.Proof.Gen.Kernel.Skeleton
import proofs.«404230_j6674379178176_3_alg».proof.Proof.Gen.Kernel.Launch
import proofs.«404230_j6674379178176_3_alg».proof.Proof.Gen.Kernel.Points
import proofs.«404230_j6674379178176_3_alg».proof.Proof.Gen.Kernel.Frame
import proofs.«404230_j6674379178176_3_alg».proof.Proof.Gen.KernelIdeal
import proofs.«404230_j6674379178176_3_alg».proof.Proof.Gen.KernelIdeal.Skeleton
import proofs.«404230_j6674379178176_3_alg».proof.Proof.Gen.KernelIdeal.Launch
import proofs.«404230_j6674379178176_3_alg».proof.Proof.Gen.KernelIdeal.Points
import proofs.«404230_j6674379178176_3_alg».proof.Proof.Gen.KernelIdeal.Frame
import proofs.«404230_j6674379178176_3_alg».proof.Proof.Gen.ReferenceIdeal
import proofs.«404230_j6674379178176_3_alg».proof.Proof.Gen.ReferenceIdeal.Run
import proofs.«404230_j6674379178176_3_alg».proof.Proof.Gen.ReferenceIdeal.Read
import proofs.«404230_j6674379178176_3_alg».proof.Proof.Gen.Pre_finite_inputs
import proofs.«404230_j6674379178176_3_alg».proof.Proof.KRun
import proofs.«404230_j6674379178176_3_alg».proof.Proof.KValue
import proofs.«404230_j6674379178176_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel program's run: the result array ends at the composition `KTerm.out` of the argument arrays, which end
    as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v48)
        = Cert.KernelIdeal.KTerm.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun _ h c => ⟨(h c).1.trans (Cert.KernelIdeal.KValue.W4_out m ρ c), (h c).2⟩)
    (Cert.KernelIdeal.KRun.run_out (F := Ideal) m ρ)

/-- From memories agreeing on the arguments both programs end with the same result array: the kernel program's
    composition of the arguments is the reference's last stage. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v54_eq, h0, h1, h2, h3, h4, h5, h6, h7]
  exact (Cert.Bridge.out_v54 _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
